-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S64x64 : Shape := ⟨2, ![64, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8x2048x64 .f32) (main_arg1 : FVec F S8x2048x2048 .f32) (main_arg2 : FVec F S64x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S8x2048x64 : Shape := ⟨3, ![8, 2048, 64]⟩
abbrev S8x2048x2048 : Shape := ⟨3, ![8, 2048, 2048]⟩
abbrev S64x64 : Shape := ⟨2, ![64, 64]⟩
abbrev S8x2048x1 : Shape := ⟨3, ![8, 2048, 1]⟩
abbrev S1x2048x2048 : Shape := ⟨3, ![1, 2048, 2048]⟩
abbrev S1x2048x1 : Shape := ⟨3, ![1, 2048, 1]⟩
abbrev S2048x2048 : Shape := ⟨2, ![2048, 2048]⟩
abbrev S2048 : Shape := ⟨1, ![2048]⟩
abbrev S2048x1 : Shape := ⟨2, ![2048, 1]⟩
abbrev S8x1x2048 : Shape := ⟨3, ![8, 1, 2048]⟩
abbrev S1x2048x64 : Shape := ⟨3, ![1, 2048, 64]⟩
abbrev S1x1x2048 : Shape := ⟨3, ![1, 1, 2048]⟩
abbrev S1x2048 : Shape := ⟨2, ![1, 2048]⟩
abbrev S2048x64 : Shape := ⟨2, ![2048, 64]⟩

abbrev nBuf : Space → Nat
  | .hbm => 6
  | .vmem => 15
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S64x64, .f32⟩
  | .hbm, ⟨3, _⟩ => ⟨S8x2048x1, .f32⟩
  | .hbm, ⟨4, _⟩ => ⟨S8x1x2048, .f32⟩
  | .hbm, ⟨5, _⟩ => ⟨S8x2048x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x2048, .f32⟩
  | .local _ .vmem, ⟨5, _⟩ => ⟨S1x2048x2048, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x1, .f32⟩
  | .local _ .vmem, ⟨9, _⟩ => ⟨S1x2048x1, .f32⟩
  | .local _ .vmem, ⟨10, _⟩ => ⟨S1x1x2048, .f32⟩
  | .local _ .vmem, ⟨11, _⟩ => ⟨S1x1x2048, .f32⟩
  | .local _ .vmem, ⟨12, _⟩ => ⟨S64x64, .f32⟩
  | .local _ .vmem, ⟨13, _⟩ => ⟨S1x2048x64, .f32⟩
  | .local _ .vmem, ⟨14, _⟩ => ⟨S1x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S2048x2048_S2048 : S2048x2048.Reduces [1] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  transposes_S8x2048x1_S8x1x2048_0_2_1 : S8x2048x1.Transposes [0, 2, 1] S8x1x2048
  broadcasts_S2048x1_S2048x2048 : S2048x1.Broadcasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S2048x2048 : S1x2048.Broadcasts S2048x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x64_S64x64_0_0 : ∀ a, (![0, 0] : Fin 2 → Nat) a + S64x64.size a ≤ S64x64.size a
  h_S64x64 : 0 < S64x64.numel
  shapeCasts_S2048x64_S1x2048x64 : S2048x64.ShapeCasts S1x2048x64
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x2048.size a ≤ S8x2048x2048.size a
  hwx1_0 : ∀ i : grid1.Coords, EltTy.bits .f32 = 32 ∨ (Rect.block (s := S8x2048x2048) S1x2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .f32 = 32 ∨ (Rect.block (s := S8x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1.size a ≤ S8x2048x1.size a
  hwx1_2 : ∀ i : grid1.Coords, EltTy.bits .f32 = 32 ∨ (Rect.block (s := S8x2048x1) S1x2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x64.size a ≤ S8x2048x64.size a
  hwx1_5 : ∀ i : grid1.Coords, EltTy.bits .f32 = 32 ∨ (Rect.block (s := S8x2048x64) S1x2048x64.size (cc1_transform_5 i) (hinb1_5 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S64x64 : Shape := ⟨2, ![64, 64]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S64x64, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x2048x64, .f32⟩
  | .hbm, ⟨20, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x2048_S8x2048x64_S8x2048x64_2_1_1_2_0_0_wf : DotDims.WF S8x2048x2048 S8x2048x64 S8x2048x64 [2] [1] [1] [2] [0] [0]
  dot_S8x2048x64_S64x64_S8x2048x64_2_0_01_1_n_n_wf : DotDims.WF S8x2048x64 S64x64 S8x2048x64 [2] [0] [0, 1] [1] [] []

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf

class Facts : Prop extends Facts₀ where

variable [Facts]
-- ==== Proof.Spec.lean ====
/-
  The mathematics both programs compute, on the extended reals.

  A batch of 8 graphs on 2048 nodes is given by pairwise distances; node features are 64-wide. The adjacency decays
  exponentially with distance, `A[b,n,m] = exp (κ · dist[b,n,m])` with `κ` the f32 nearest to -1/5 (the same
  word in both programs, so its value is never opened). A node's degree is its row sum, `d[b,n] = ∑ₘ A[b,n,m]`,
  and the adjacency is normalised symmetrically, `Â[b,n,m] = (A[b,n,m] · d[b,n]^(-1/2)) · d[b,m]^(-1/2)`, the
  inverse square root spelt `1 / sqrt d`. Features are propagated along `Â` and then mixed by the weights:
  `out[b,n,o] = ∑_f (∑ₘ Â[b,n,m] · x[b,m,f]) · W[f,o]`.

  Nothing here is rearranged: both programs form the same products in the same order, so the equality of their
  results needs no algebraic law of the extended reals beyond `0 + s = s` for the sums' zero start.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- Pairwise distances, `[batch, node, node]`. -/
abbrev Dist := (⟨3, ![8, 2048, 2048]⟩ : Shape).Idx → EReal
/-- Node features, `[batch, node, feature]`; also the shape of the result. -/
abbrev Feat := (⟨3, ![8, 2048, 64]⟩ : Shape).Idx → EReal
/-- The mixing weights, `[feature, filter]`. -/
abbrev Wt := (⟨2, ![64, 64]⟩ : Shape).Idx → EReal

/-- The decay rate: the f32 nearest to -1/5, as both programs write it. -/
def decay : EReal := Ideal.ofBits .f32 0xBE4CCCCD#32
/-- The numerator of the inverse square root: the f32 word of 1. -/
def unit : EReal := Ideal.ofBits .f32 0x3F800000#32

/-- The adjacency between nodes `n` and `m` of graph `b`: exponential decay in their distance. -/
def adj (dist : Dist) (b : Fin 8) (n m : Fin 2048) : EReal := Ideal.exp (decay * dist (ix3 b n m))

/-- A node's degree: the sum of its adjacency row. -/
def deg (dist : Dist) (b : Fin 8) (n : Fin 2048) : EReal := ∑ m : Fin 2048, adj dist b n m

/-- The degree's inverse square root, written as the programs write it: one over the square root. -/
def invSqrtDeg (dist : Dist) (b : Fin 8) (n : Fin 2048) : EReal := Ideal.div unit (Ideal.sqrt (deg dist b n))

/-- The symmetrically normalised adjacency: scaled by the row node's factor, then by the column node's. -/
def normAdj (dist : Dist) (b : Fin 8) (n m : Fin 2048) : EReal :=
  adj dist b n m * invSqrtDeg dist b n * invSqrtDeg dist b m

/-- Features propagated one step along the normalised adjacency. -/
def propagated (dist : Dist) (x : Feat) (b : Fin 8) (n : Fin 2048) (f : Fin 64) : EReal :=
  ∑ m : Fin 2048, normAdj dist b n m * x (ix3 b m f)

/-- The layer's result at graph `b`, node `n`, filter `o`. -/
def gcnAt (dist : Dist) (x : Feat) (W : Wt) (b : Fin 8) (n : Fin 2048) (o : Fin 64) : EReal :=
  ∑ f : Fin 64, propagated dist x b n f * W (ix2 f o)

/-- The layer's result as one array. -/
def gcn (dist : Dist) (x : Feat) (W : Wt) : Feat := fun i => gcnAt dist x W (i 0) (i 1) (i 2)

/-- Row factors as an array, `[batch, node, 1]`, and column factors, `[batch, 1, node]`. -/
abbrev RowF := (⟨3, ![8, 2048, 1]⟩ : Shape).Idx → EReal
abbrev ColF := (⟨3, ![8, 1, 2048]⟩ : Shape).Idx → EReal

/-- The layer with the two normalising factors READ from arrays instead of computed: `rowF` scales the adjacency's
    rows, `colF` its columns, in that order. -/
def scaledAt (dist : Dist) (x : Feat) (rowF : RowF) (colF : ColF) (W : Wt) (b : Fin 8) (n : Fin 2048) (o : Fin 64) : EReal :=
  ∑ f : Fin 64, (∑ m : Fin 2048,
    Ideal.exp (decay * dist (ix3 b n m)) * rowF (ix3 b n (0 : Fin 1)) * colF (ix3 b (0 : Fin 1) m) * x (ix3 b m f)) * W (ix2 f o)

def scaled (dist : Dist) (x : Feat) (rowF : RowF) (colF : ColF) (W : Wt) : Feat :=
  fun i => scaledAt dist x rowF colF W (i 0) (i 1) (i 2)

/-- The inverse square roots of the degrees laid out as a column per graph, and as a row per graph. -/
def invSqrtCol (dist : Dist) : RowF := fun i => invSqrtDeg dist (i 0) (i 1)
def invSqrtRow (dist : Dist) : ColF := fun i => invSqrtDeg dist (i 0) (i 2)

/-- With the factors the inverse square roots of the degrees, the scaled layer is the layer. -/
theorem scaled_invSqrt (dist : Dist) (x : Feat) (W : Wt) :
    scaled dist x (invSqrtCol dist) (invSqrtRow dist) W = gcn dist x W := rfl

theorem gcn_ix3 (dist : Dist) (x : Feat) (W : Wt) (b : Fin 8) (n : Fin 2048) (o : Fin 64) :
    gcn dist x W (ix3 b n o) = gcnAt dist x W b n o := rfl

end Cert.GraphConv

end
-- ==== Proof.DegreeArray.lean ====
/-
  What the first kernel leaves in its output array: the inverse square roots of the degrees, one column per graph.

  The first kernel runs once per graph `b`. At that point it reads the graph's whole distance block
  `dist[b, ·, ·]`, forms the adjacency `exp (κ · dist[b,n,m])`, sums each row over `m`, and stores
  `1 / sqrt` of the row sum at `[b, n, 0]`. So entry `(b, n, 0)` of the output depends on row `(b, n, ·)` of the
  distances and on nothing else. The eight blocks `[b, ·, 0]`, one per point, tile the `[8, 2048, 1]` array, and each is
  the restriction of ONE whole-array function — the specification's `invSqrtCol` of the distances as the kernel found
  them — so after the last point the array is that function.
-/
import proofs.«122377_j6777458393356_1_alg».proof.Proof.Gen.KernelIdeal.Frame
import proofs.«122377_j6777458393356_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Degree

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-- A vector `[a]` cast to a column `[a, 1]` reads, at `(i, z)`, the vector at `i`: both sit at row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz]; omega)

/-- The kernel body's stored value at row `n` of its block: one over the square root of the row sum of the adjacency,
    the adjacency's entry the exponential of the decay rate times the loaded distance. The lane reduction is the plain
    sum over the row (its zero accumulator is the sum's own start), and the shape casts only add or drop unit axes. -/
theorem degree_payload (v0 : Vec Ideal S1x2048x2048 .f32) (u : Fin 1) (n : Fin 2048) (z : Fin 1) :
    k0_pay1 (F := Ideal) v0 (ix3 u n z)
      = Ideal.div unit (Ideal.sqrt (∑ m : Fin 2048, Ideal.exp (decay * v0 (ix3 (0 : Fin 1) n m)))) := by
  unfold k0_pay1
  refine (shapeCast_ab_1ab_apply _ _ u n z).trans ?_
  refine congrArg (Ideal.div unit) (congrArg Ideal.sqrt ?_)
  refine (shapeCast_a_a1_apply _ _ n z).trans ?_
  refine (Ideal.multiReduction_add_single _ _ reduces_S2048x2048_S2048 _ _ (ix1 n)).trans ?_
  refine Finset.sum_congr rfl fun m _ => ?_
  have e : (reduces_S2048x2048_S2048.lift (ix1 n) m) = ix2 n m :=
    funext fun a => Fin.ext (by match a with | ⟨0, _⟩ => rfl | ⟨1, _⟩ => rfl)
  rw [e]
  exact congrArg (fun y => Ideal.exp (decay * y)) (shapeCast_1ab_ab_apply v0 _ n m)

variable (V : (c : Dev nD) → (b : Ref sig .tc) → Buf (Elt Ideal) ((c : Thread nD τ).loc b))

/-- The body's accesses start at the origin of their buffers. -/
theorem hz3 : (![0, 0, 0] : Fin 3 → Nat) = fun _ => 0 := funext fun a => by fin_cases a <;> rfl

/-- Both windows' blocks at point `t` are block `(t, 0, 0)`: graph `t`, every row, every column. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is block `t` of the inverse-square-root column array of the distances: the entry at
    `(u, n, z)` of the block is computed from the distance block's row `n`, which is row `(t, n, ·)` of the array. -/
theorem flushed_eq (c : Dev nD) (t : Fin cfg0.N) :
    (dat0 (F := Ideal) V c).flushed 1 t = ((cfg0.win 1).blk t).view.read (Elt Ideal) (invSqrtCol (V c main_arg1)) := by
  show (cfg0.win 1).cut (grid0.coords t) ((dat0 V c).after 1 t) = _
  rw [after0_1]
  unfold out0_1
  rw [View.canon_unit_zero hz3]
  simp only [View.ld_unit_zero (S := S1x2048x2048) hz3]
  obtain ⟨e0, e1, e2, e3, e4, e5⟩ := idx_facts0 t
  funext j
  obtain ⟨u, n, z, rfl⟩ : ∃ (u : Fin 1) (n : Fin 2048) (z : Fin 1), j = ix3 u n z := ⟨j 0, j 1, j 2, eq_ix3 j⟩
  show k0_pay1 (iblk0 V c 0 t) (ix3 u n z) = invSqrtCol (V c main_arg1) (((cfg0.win 1).blk t).view.emb (ix3 u n z))
  refine (degree_payload (iblk0 V c 0 t) u n z).trans ?_
  unfold invSqrtCol invSqrtDeg deg adj
  refine congrArg (Ideal.div unit) (congrArg Ideal.sqrt (Finset.sum_congr rfl fun m _ => ?_))
  refine congrArg (fun y => Ideal.exp (decay * y)) ?_
  show V c main_arg1 (((cfg0.win 0).blk t).view.emb (ix3 0 n m)) = V c main_arg1 (ix3 _ _ m)
  refine congrArg (V c main_arg1) ?_
  funext a; apply Fin.ext
  match a with
  | ⟨0, _⟩ => show win0_0.index t (0 : Fin 3) * 1 + 1 * 0 = win0_1.index t (0 : Fin 3) * 1 + 1 * u.val; omega
  | ⟨1, _⟩ => show win0_0.index t (1 : Fin 3) * 2048 + 1 * n.val = win0_1.index t (1 : Fin 3) * 2048 + 1 * n.val; omega
  | ⟨2, _⟩ => show win0_0.index t (2 : Fin 3) * 2048 + 1 * m.val = m.val; omega

/-- An index of the output array lies in point `t`'s block iff each coordinate lies in the block's range on its axis. -/
theorem mem_blk (t : Fin cfg0.N) (i : S8x2048x1.Idx) :
    i ∈ ((cfg0.win 1).blk t).view.set ↔ ∀ a : Fin 3, win0_1.index t a * S1x2048x1.size a ≤ (i a).val ∧ (i a).val < win0_1.index t a * S1x2048x1.size a + S1x2048x1.size a := by
  show i ∈ ((View.whole main_v0).slice (win0_1.rect t)).set ↔ _
  rw [View.set_slice_whole, Rect.mem_set_unit]
  exact Iff.rfl

/-- Every index of the output array is written by some point: `(b, n, 0)` by the point of graph `b`. -/
theorem cover (i : S8x2048x1.Idx) : ∃ t : Fin cfg0.N, (cfg0.win 1).flush t = true ∧ i ∈ ((cfg0.win 1).blk t).view.set := by
  have h0 : (i 0).val < 8 := (i 0).isLt
  have h1 : (i 1).val < 2048 := (i 1).isLt
  have h2 : (i 2).val < 1 := (i 2).isLt
  obtain ⟨t, ht⟩ : ∃ t : Fin cfg0.N, t.val = (i 0).val := ⟨⟨(i 0).val, by rw [show cfg0.N = 8 from N_0]; exact h0⟩, rfl⟩
  obtain ⟨e0, e1, e2, e3, e4, e5⟩ := idx_facts0 t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 1 ≤ (i 2).val ∧ (i 2).val < win0_1.index t (2 : Fin 3) * 1 + 1; omega

/-- After its eight points the first kernel's output array is the inverse-square-root column array of the distances
    the kernel found in its input array. -/
theorem region0_array (c : Dev nD) :
    (dat0 (F := Ideal) V c).arrAt 1 cfg0.N = invSqrtCol (V c main_arg1) :=
  (dat0 V c).arrAt_eq_of_cover 1 _ (fun t _ => flushed_eq V c t) cover

end Cert.KernelIdeal.Degree

end
-- ==== Proof.GcnArray.lean ====
/-
  The second kernel's output array, after all of its grid points, is the scaled graph-convolution layer of the arrays
  the region found.

  The kernel runs once per graph `b` of the batch of 8. At point `b` it loads graph `b`'s distances `[1,2048,2048]`,
  features `[1,2048,64]`, row factors `[1,2048,1]`, column factors `[1,1,2048]` and the whole weights `[64,64]`, forms
  `P[n,m] = (exp (κ · dist[n,m]) · row[n]) · col[m]`, then `Q = P × feat` and `R = Q × W`, each product of matrices
  accumulated from zero, and stores `R` as block `b` of the output. Read at an index this is
  `R[n,o] = ∑_f (∑_m exp (κ · dist[b,n,m]) · rowF[b,n,0] · colF[b,0,m] · x[b,m,f]) · W[f,o]`,
  which is `scaledAt` of the specification term for term: the only law used is `0 + s = s` for the two sums' zero start.

  The proof reads each operation at an index (the two products first, then the broadcasts and the casts that drop or
  add a unit axis), identifies each loaded block's entry with the array's entry — block index times block size plus
  the offset inside the block —, and then notes that the 8 blocks `(b, 0, 0)` of size `[1,2048,64]` cover the
  `[8,2048,64]` array.
-/
import proofs.«122377_j6777458393356_1_alg».proof.Proof.Gen.KernelIdeal.Frame
import proofs.«122377_j6777458393356_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-! ## The two products of matrices, read at an index

Each `tpu.matmul` contracts the left operand's axis 1 with the right operand's axis 0 and accumulates into a zero
splat, so at `(n, o)` it is `∑ k, lhs (n, k) * rhs (k, o)`. The four facts per product say which coordinate of
each operand index is the output's and which is the contraction's. -/

theorem lhs_dotA_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_dotA_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_dotA_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_dotA_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

theorem lhs_dotB_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_dotB_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_dotB_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_dotB_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The first product, `[2048,2048] × [2048,64]`, into zero: a sum over the 2048 columns of the left operand. -/
theorem matmulA_apply (l : FVec Ideal S2048x2048 .f32) (r : FVec Ideal S2048x64 .f32) (n : Fin 2048) (f : Fin 64) :
    FloatOps.matmul dot_S2048x2048_S2048x64_S2048x64_1_0_0_1_n_n none l r (constant S2048x64 .f32 0x00000000#32) (ix2 n f)
      = ∑ m : Fin 2048, l (ix2 n m) * r (ix2 m f) := by
  rw [Ideal.matmul_constant_zero_apply, ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 n f) ((ValueIdx.contrEquiv1 dot_S2048x2048_S2048x64_S2048x64_1_0_0_1_n_n 2048 rfl rfl).symm k) = ix2 n k := funext fun a => Fin.ext (by
    match a with
    | ⟨0, _⟩ => exact lhs_dotA_0 _ _
    | ⟨1, _⟩ => exact (lhs_dotA_1 _ _).trans hk)
  have er : dot_S2048x2048_S2048x64_S2048x64_1_0_0_1_n_n.rhsIdx (ix2 n f) ((ValueIdx.contrEquiv1 dot_S2048x2048_S2048x64_S2048x64_1_0_0_1_n_n 2048 rfl rfl).symm k) = ix2 k f := funext fun a => Fin.ext (by
    match a with
    | ⟨0, _⟩ => exact (rhs_dotA_0 _ _).trans hk
    | ⟨1, _⟩ => exact rhs_dotA_1 _ _)
  rw [el, er]

/-- The second product, `[2048,64] × [64,64]`, into zero: a sum over the 64 features. -/
theorem matmulB_apply (l : FVec Ideal S2048x64 .f32) (r : FVec Ideal S64x64 .f32) (n : Fin 2048) (o : Fin 64) :
    FloatOps.matmul dot_S2048x64_S64x64_S2048x64_1_0_0_1_n_n none l r (constant S2048x64 .f32 0x00000000#32) (ix2 n o)
      = ∑ f : Fin 64, l (ix2 n f) * r (ix2 f o) := by
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 n o) ((ValueIdx.contrEquiv1 dot_S2048x64_S64x64_S2048x64_1_0_0_1_n_n 64 rfl rfl).symm k) = ix2 n k := funext fun a => Fin.ext (by
    match a with
    | ⟨0, _⟩ => exact lhs_dotB_0 _ _
    | ⟨1, _⟩ => exact (lhs_dotB_1 _ _).trans hk)
  have er : dot_S2048x64_S64x64_S2048x64_1_0_0_1_n_n.rhsIdx (ix2 n o) ((ValueIdx.contrEquiv1 dot_S2048x64_S64x64_S2048x64_1_0_0_1_n_n 64 rfl rfl).symm k) = ix2 k o := funext fun a => Fin.ext (by
    match a with
    | ⟨0, _⟩ => exact (rhs_dotB_0 _ _).trans hk
    | ⟨1, _⟩ => exact rhs_dotB_1 _ _)
  rw [el, er]

/-! ## The payload at an index -/

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What one grid point computes from its five blocks, at node `n` and filter `o`: the adjacency
    `exp (κ · dist)` scaled by the row factor and then by the column factor, propagated over the 2048 nodes against the
    features, and mixed over the 64 features by the weights — each product of matrices started from zero. -/
theorem gcn_payload (v0 : Vec Ideal S1x2048x2048 .f32) (v5 : Vec Ideal S1x2048x1 .f32) (v9 : Vec Ideal S1x1x2048 .f32)
    (v13 : Vec Ideal S1x2048x64 .f32) (v16 : Vec Ideal S64x64 .f32) (u : Fin 1) (n : Fin 2048) (o : Fin 64) :
    k1_pay1 (F := Ideal) v0 v5 v9 v13 v16 (ix3 u n o)
      = ∑ f : Fin 64, (∑ m : Fin 2048,
          Ideal.exp (decay * v0 (ix3 (0 : Fin 1) n m)) * v5 (ix3 (0 : Fin 1) n (0 : Fin 1)) * v9 (ix3 (0 : Fin 1) (0 : Fin 1) m)
            * v13 (ix3 (0 : Fin 1) m f)) * v16 (ix2 f o) := by
  unfold k1_pay1
  refine (shapeCast_ab_1ab_apply _ _ u n o).trans ?_
  refine (matmulB_apply _ _ n o).trans ?_
  refine Finset.sum_congr rfl fun f _ => ?_
  refine congrArg (· * v16 (ix2 f o)) ?_
  refine (matmulA_apply _ _ n f).trans ?_
  refine Finset.sum_congr rfl fun m _ => ?_
  have e1 : shapeCast S2048x64 v13 shapeCasts_S1x2048x64_S2048x64 (ix2 m f) = v13 (ix3 (0 : Fin 1) m f) :=
    shapeCast_1ab_ab_apply v13 _ m f
  have e2 : broadcastTo S2048x2048 (shapeCast S1x2048 v9 shapeCasts_S1x1x2048_S1x2048) broadcasts_S1x2048_S2048x2048 (ix2 n m)
      = v9 (ix3 (0 : Fin 1) (0 : Fin 1) m) :=
    (broadcastTo_1b_ab_apply _ _ n m).trans (shapeCast_1ab_ab_apply v9 _ (0 : Fin 1) m)
  have e3 : broadcastTo S2048x2048 (shapeCast S2048x1 v5 shapeCasts_S1x2048x1_S2048x1) broadcasts_S2048x1_S2048x2048 (ix2 n m)
      = v5 (ix3 (0 : Fin 1) n (0 : Fin 1)) :=
    (broadcastTo_a1_ab_apply _ _ n m).trans (shapeCast_1ab_ab_apply v5 _ n (0 : Fin 1))
  have e4 : shapeCast S2048x2048 v0 shapeCasts_S1x2048x2048_S2048x2048 (ix2 n m) = v0 (ix3 (0 : Fin 1) n m) :=
    shapeCast_1ab_ab_apply v0 _ n m
  show Ideal.exp (Ideal.ofBits .f32 0xBE4CCCCD#32 * shapeCast S2048x2048 v0 shapeCasts_S1x2048x2048_S2048x2048 (ix2 n m))
        * broadcastTo S2048x2048 (shapeCast S2048x1 v5 shapeCasts_S1x2048x1_S2048x1) broadcasts_S2048x1_S2048x2048 (ix2 n m)
        * broadcastTo S2048x2048 (shapeCast S1x2048 v9 shapeCasts_S1x1x2048_S1x2048) broadcasts_S1x2048_S2048x2048 (ix2 n m)
        * shapeCast S2048x64 v13 shapeCasts_S1x2048x64_S2048x64 (ix2 m f) = _
  rw [e1, e2, e3, e4]
  rfl

/-! ## One grid point's block of the result -/

/-- If the five blocks a point loads are graph `b`'s slices of the arrays (the weights whole), what the point computes
    at `(n, o)` is the scaled layer at `(b, n, o)`. -/
theorem gcn_block (dist : Dist) (x : Feat) (rowF : RowF) (colF : ColF) (W : Wt) (b : Fin 8)
    (x0 : Vec Ideal S1x2048x2048 .f32) (x1 : Vec Ideal S1x2048x64 .f32) (x2 : Vec Ideal S1x2048x1 .f32)
    (x3 : Vec Ideal S1x1x2048 .f32) (x4 : Vec Ideal S64x64 .f32)
    (h0 : ∀ (n m : Fin 2048), x0 (ix3 (0 : Fin 1) n m) = dist (ix3 b n m))
    (h1 : ∀ (m : Fin 2048) (f : Fin 64), x1 (ix3 (0 : Fin 1) m f) = x (ix3 b m f))
    (h2 : ∀ n : Fin 2048, x2 (ix3 (0 : Fin 1) n (0 : Fin 1)) = rowF (ix3 b n (0 : Fin 1)))
    (h3 : ∀ m : Fin 2048, x3 (ix3 (0 : Fin 1) (0 : Fin 1) m) = colF (ix3 b (0 : Fin 1) m))
    (h4 : ∀ f o : Fin 64, x4 (ix2 f o) = W (ix2 f o))
    (u : Fin 1) (n : Fin 2048) (o : Fin 64) :
    k1_pay1 (F := Ideal) x0 x2 x3 x1 x4 (ix3 u n o) = scaledAt dist x rowF colF W b n o := by
  refine (gcn_payload x0 x2 x3 x1 x4 u n o).trans ?_
  unfold scaledAt
  refine Finset.sum_congr rfl fun f _ => ?_
  rw [h4 f o]
  refine congrArg (· * W (ix2 f o)) ?_
  refine Finset.sum_congr rfl fun m _ => ?_
  rw [h0 n m, h1 m f, h2 n, h3 m]

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 8 grid points: every blocked window sits at block `(t, 0, 0)`, the weights at `(0, 0)`. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

variable (V : (c : Dev nD) → (b : Ref sig .tc) → Buf (Elt Ideal) ((c : Thread nD τ).loc b))

/-- What grid point `t` writes back is block `t` of the scaled layer of the arrays as the region found them: each window's
    block index times the block's size, plus the coordinate inside the block, is the array's coordinate — graph `t` on
    the batch axis, the same node, feature or filter on the others. -/
theorem flushed_eq (c : Dev nD) (t : Fin cfg1.N) :
    (dat1 (F := Ideal) V c).flushed 5 t
      = ((cfg1.win 5).blk t).view.read (Elt Ideal)
          (scaled (V c main_arg1) (V c main_arg0) (V c main_v0) (V c main_v1) (V c main_arg2)) := by
  show (cfg1.win 5).cut (grid1.coords t) ((dat1 V c).after 5 t) = _
  rw [after1_5]
  unfold out1_5
  rw [View.canon_unit_zero hz3]
  simp only [View.ld_unit_zero (S := S1x2048x2048) hz3, View.ld_unit_zero (S := S1x2048x64) hz3,
    View.ld_unit_zero (S := S1x2048x1) hz3, View.ld_unit_zero (S := S1x1x2048) hz3, View.ld_unit_zero (S := S64x64) hz2]
  obtain ⟨a00, a01, a02, a10, a11, a12, a20, a21, a22, a30, a31, a32, a40, a41, a50, a51, a52⟩ := idx_facts t
  funext j
  obtain ⟨u, n, o, rfl⟩ : ∃ (u : Fin 1) (n : Fin 2048) (o : Fin 64), j = ix3 u n o := ⟨j 0, j 1, j 2, eq_ix3 j⟩
  have h8 : cfg1.N = 8 := N_1
  have ht : t.val < 8 := by have := t.isLt; omega
  have hu : u.val = 0 := by have := u.isLt; omega
  have e5 : ((cfg1.win 5).blk t).view.emb (ix3 u n o) = ix3 (⟨t.val, ht⟩ : Fin 8) n o := by
    funext a; apply Fin.ext
    match a with
    | ⟨0, _⟩ => show win1_5.index t (0 : Fin 3) * 1 + 1 * u.val = t.val; omega
    | ⟨1, _⟩ => show win1_5.index t (1 : Fin 3) * 2048 + 1 * n.val = n.val; omega
    | ⟨2, _⟩ => show win1_5.index t (2 : Fin 3) * 64 + 1 * o.val = o.val; omega
  show k1_pay1 (F := Ideal) (iblk1 V c 0 t) (iblk1 V c 2 t) (iblk1 V c 3 t) (iblk1 V c 1 t) (iblk1 V c 4 t) (ix3 u n o)
      = scaled (V c main_arg1) (V c main_arg0) (V c main_v0) (V c main_v1) (V c main_arg2)
          (((cfg1.win 5).blk t).view.emb (ix3 u n o))
  rw [e5]
  show _ = scaledAt (V c main_arg1) (V c main_arg0) (V c main_v0) (V c main_v1) (V c main_arg2) (⟨t.val, ht⟩ : Fin 8) n o
  refine gcn_block (V c main_arg1) (V c main_arg0) (V c main_v0) (V c main_v1) (V c main_arg2) (⟨t.val, ht⟩ : Fin 8)
    (iblk1 V c 0 t) (iblk1 V c 1 t) (iblk1 V c 2 t) (iblk1 V c 3 t) (iblk1 V c 4 t) ?_ ?_ ?_ ?_ ?_ u n o
  · intro n m
    show V c main_arg1 (((cfg1.win 0).blk t).view.emb (ix3 (0 : Fin 1) n m)) = V c main_arg1 (ix3 (⟨t.val, ht⟩ : Fin 8) n m)
    refine congrArg (V c main_arg1) (funext fun a => Fin.ext ?_)
    match a with
    | ⟨0, _⟩ => show win1_0.index t (0 : Fin 3) * 1 + 1 * (0 : Fin 1).val = t.val; have z : ((0 : Fin 1) : ℕ) = 0 := rfl; omega
    | ⟨1, _⟩ => show win1_0.index t (1 : Fin 3) * 2048 + 1 * n.val = n.val; omega
    | ⟨2, _⟩ => show win1_0.index t (2 : Fin 3) * 2048 + 1 * m.val = m.val; omega
  · intro m f
    show V c main_arg0 (((cfg1.win 1).blk t).view.emb (ix3 (0 : Fin 1) m f)) = V c main_arg0 (ix3 (⟨t.val, ht⟩ : Fin 8) m f)
    refine congrArg (V c main_arg0) (funext fun a => Fin.ext ?_)
    match a with
    | ⟨0, _⟩ => show win1_1.index t (0 : Fin 3) * 1 + 1 * (0 : Fin 1).val = t.val; have z : ((0 : Fin 1) : ℕ) = 0 := rfl; omega
    | ⟨1, _⟩ => show win1_1.index t (1 : Fin 3) * 2048 + 1 * m.val = m.val; omega
    | ⟨2, _⟩ => show win1_1.index t (2 : Fin 3) * 64 + 1 * f.val = f.val; omega
  · intro n
    show V c main_v0 (((cfg1.win 2).blk t).view.emb (ix3 (0 : Fin 1) n (0 : Fin 1))) = V c main_v0 (ix3 (⟨t.val, ht⟩ : Fin 8) n (0 : Fin 1))
    refine congrArg (V c main_v0) (funext fun a => Fin.ext ?_)
    match a with
    | ⟨0, _⟩ => show win1_2.index t (0 : Fin 3) * 1 + 1 * (0 : Fin 1).val = t.val; have z : ((0 : Fin 1) : ℕ) = 0 := rfl; omega
    | ⟨1, _⟩ => show win1_2.index t (1 : Fin 3) * 2048 + 1 * n.val = n.val; omega
    | ⟨2, _⟩ => show win1_2.index t (2 : Fin 3) * 1 + 1 * (0 : Fin 1).val = (0 : Fin 1).val; have z : ((0 : Fin 1) : ℕ) = 0 := rfl; omega
  · intro m
    show V c main_v1 (((cfg1.win 3).blk t).view.emb (ix3 (0 : Fin 1) (0 : Fin 1) m)) = V c main_v1 (ix3 (⟨t.val, ht⟩ : Fin 8) (0 : Fin 1) m)
    refine congrArg (V c main_v1) (funext fun a => Fin.ext ?_)
    match a with
    | ⟨0, _⟩ => show win1_3.index t (0 : Fin 3) * 1 + 1 * (0 : Fin 1).val = t.val; have z : ((0 : Fin 1) : ℕ) = 0 := rfl; omega
    | ⟨1, _⟩ => show win1_3.index t (1 : Fin 3) * 1 + 1 * (0 : Fin 1).val = (0 : Fin 1).val; have z : ((0 : Fin 1) : ℕ) = 0 := rfl; omega
    | ⟨2, _⟩ => show win1_3.index t (2 : Fin 3) * 2048 + 1 * m.val = m.val; omega
  · intro f o
    show V c main_arg2 (((cfg1.win 4).blk t).view.emb (ix2 f o)) = V c main_arg2 (ix2 f o)
    refine congrArg (V c main_arg2) (funext fun a => Fin.ext ?_)
    match a with
    | ⟨0, _⟩ => show win1_4.index t (0 : Fin 2) * 64 + 1 * f.val = f.val; omega
    | ⟨1, _⟩ => show win1_4.index t (1 : Fin 2) * 64 + 1 * o.val = o.val; omega

/-! ## From the blocks to the array -/

/-- An index of the result array is in point `t`'s block iff each coordinate is in the block's range on its axis. -/
theorem mem_blk (t : Fin cfg1.N) (i : S8x2048x64.Idx) :
    i ∈ ((cfg1.win 5).blk t).view.set ↔ ∀ a : Fin 3, win1_5.index t a * S1x2048x64.size a ≤ (i a).val ∧ (i a).val < win1_5.index t a * S1x2048x64.size a + S1x2048x64.size a := by
  show i ∈ ((View.whole main_v2).slice (win1_5.rect t)).set ↔ _
  rw [View.set_slice_whole, Rect.mem_set_unit]
  exact Iff.rfl

/-- Every graph is some grid point's. -/
theorem idx_onto : ∀ q : Fin 8, ∃ t : Fin cfg1.N, t.val = q.val :=
  (by decide +kernel : ∀ q : Fin 8, ∃ t : Fin grid1.N, t.val = q.val)

/-- The 8 blocks cover the result array: index `(b, n, o)` is in the block of the point for graph `b`. -/
theorem cover (i : S8x2048x64.Idx) :
    ∃ t : Fin cfg1.N, (cfg1.win 5).flush t = true ∧ i ∈ ((cfg1.win 5).blk t).view.set := by
  obtain ⟨t, ht⟩ := idx_onto (i 0)
  obtain ⟨a00, a01, a02, a10, a11, a12, a20, a21, a22, a30, a31, a32, a40, a41, a50, a51, a52⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2048 ≤ (i 1).val ∧ (i 1).val < win1_5.index t (1 : Fin 3) * 2048 + 2048; have := (i 1).isLt; have h : (i 1).val < 2048 := this; omega
  | ⟨2, _⟩ => show win1_5.index t (2 : Fin 3) * 64 ≤ (i 2).val ∧ (i 2).val < win1_5.index t (2 : Fin 3) * 64 + 64; have h : (i 2).val < 64 := (i 2).isLt; omega

/-- After its 8 grid points the second kernel's output array holds the scaled layer of the arrays as the region found
    them: the distances, the features, the row and column factors, and the weights. -/
theorem region1_array (c : Dev nD) :
    (dat1 (F := Ideal) V c).arrAt 5 cfg1.N
      = scaled (V c main_arg1) (V c main_arg0) (V c main_v0) (V c main_v1) (V c main_arg2) :=
  (dat1 (F := Ideal) V c).arrAt_eq_of_cover 5 _ (fun t _ => flushed_eq V c t) cover

end Cert.KernelIdeal.Gcn

end
-- ==== Proof.KernelResult.lean ====
/-
  The kernel program's result array is the layer of the specification, as a function of the launch arguments.

  The program is two kernels with one host transpose between them. The first kernel fills a column array
  `r[b, n, 0] = 1 / sqrt (∑ₘ exp (κ · dist[b,n,m]))` from the distances and touches nothing else; the host step writes
  its transpose `rᵀ[b, 0, n] = r[b, n, 0]` into a fresh array; the second kernel reads the distances, the features, the
  weights, `r` as the row factors and `rᵀ` as the column factors, and fills the result. So at the second kernel's entry
  the three arguments are still the launch arguments (neither the first kernel nor the transpose writes them), the row
  factors are the inverse square roots of the degrees laid out as a column per graph, the column factors the same numbers
  laid out as a row per graph; and the layer with its factors read from those two arrays is the layer itself.
-/
import proofs.«122377_j6777458393356_1_alg».proof.Proof.KernelRun
import proofs.«122377_j6777458393356_1_alg».proof.Proof.DegreeArray
import proofs.«122377_j6777458393356_1_alg».proof.Proof.GcnArray
import Idealize.ShloMosaic.Lib.StableHlo.Run
import Idealize.ShloMosaic.Lib.ValueLayout

set_option maxRecDepth 16384

noncomputable section

namespace Cert.KernelIdeal.Result

open Cert.KernelIdeal Cert.KernelIdeal.Gen Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first kernel its output array holds the inverse square roots of the degrees of the launch distances. -/
theorem exit0_col (c : Dev nD) :
    W1 m ρ c (Proc.devRef .tc main_v0) = invSqrtCol (m ((c.tc : Thread nD τ).loc main_arg1)) :=
  (W1_arr m ρ c 1).trans (Degree.region0_array (V0 m ρ) c)

/-- At the second kernel's entry the distances are the launch distances: the first kernel only reads them and the
    transpose writes another array. -/
theorem entry_dist (c : Dev nD) : V2 m ρ c main_arg1 = m ((c.tc : Thread nD τ).loc main_arg1) := by
  show StableHlo.after hostOps1 (W1 m ρ c) (Proc.devRef .tc main_arg1) = _
  after_results
  exact (W1_arr m ρ c 0).trans (((dat0 (V0 m ρ) c).arrAt_in 0 rfl _).trans (A_eq0 (V0 m ρ) c 0))

/-- The features are the launch features: nothing before the second kernel touches them. -/
theorem entry_feat (c : Dev nD) : V2 m ρ c main_arg0 = m ((c.tc : Thread nD τ).loc main_arg0) := by
  show StableHlo.after hostOps1 (W1 m ρ c) (Proc.devRef .tc main_arg0) = _
  after_results
  exact W1_of_ne m ρ c main_arg0 (by decide)

/-- The weights are the launch weights, likewise. -/
theorem entry_wt (c : Dev nD) : V2 m ρ c main_arg2 = m ((c.tc : Thread nD τ).loc main_arg2) := by
  show StableHlo.after hostOps1 (W1 m ρ c) (Proc.devRef .tc main_arg2) = _
  after_results
  exact W1_of_ne m ρ c main_arg2 (by decide)

/-- The row factors are the first kernel's output, which the transpose only reads. -/
theorem entry_col (c : Dev nD) : V2 m ρ c main_v0 = invSqrtCol (m ((c.tc : Thread nD τ).loc main_arg1)) := by
  show StableHlo.after hostOps1 (W1 m ρ c) (Proc.devRef .tc main_v0) = _
  after_results
  exact exit0_col m ρ c

/-- The column factors are the transpose of the row factors: entry `(b, 0, n)` is the factor of node `n` of graph `b`. -/
theorem entry_row (c : Dev nD) : V2 m ρ c main_v1 = invSqrtRow (m ((c.tc : Thread nD τ).loc main_arg1)) := by
  show StableHlo.after hostOps1 (W1 m ρ c) (Proc.devRef .tc main_v1) = _
  after_results
  rw [exit0_col]
  funext i
  obtain ⟨b, z, n, rfl⟩ : ∃ (b : Fin 8) (z : Fin 1) (n : Fin 2048), i = ix3 b z n := ⟨i 0, i 1, i 2, eq_ix3 i⟩
  exact (transpose_ix3_021_apply _ _ b z n).trans rfl

/-- What the second kernel's write-backs leave in the result array: the layer of the launch arguments. -/
theorem result_eq (c : Dev nD) :
    (dat1 (F := Ideal) (V2 m ρ) c).arrAt 5 cfg1.N
      = gcn (m ((c.tc : Thread nD τ).loc main_arg1)) (m ((c.tc : Thread nD τ).loc main_arg0)) (m ((c.tc : Thread nD τ).loc main_arg2)) := by
  rw [Gcn.region1_array (V2 m ρ) c, entry_dist, entry_feat, entry_col, entry_row, entry_wt, scaled_invSqrt]

/-- The program's run: it terminates without a fault, the result array holds the layer of the launch arguments, and the
    arguments are unchanged. -/
theorem run : θ_run defs (onTc (τ := τ) (main (F := Ideal))) ⟨m, fun _ => 0, ρ⟩ (fun r => ∀ c : Dev nD,
      r.2.mem ((c.tc : Thread nD τ).loc main_v2)
        = gcn (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Named.run_named m ρ)

end Cert.KernelIdeal.Result

end
-- ==== Proof.RefValue.lean ====
/-
  The reference program computes the graph-convolution layer of the specification.

  The reference forms, one array operation at a time, the adjacency `A[b,n,m] = exp (κ · dist[b,n,m])`, its row sums
  `d[b,n] = 0 + ∑ₘ A[b,n,m]`, the inverse square roots `r[b,n] = 1 / sqrt d[b,n]`, the normalised adjacency
  `Â[b,n,m] = (A[b,n,m] · r[b,n]) · r[b,m]` (the two factors reach the product through broadcasts that only repeat
  `r` along the missing axis), the propagated features `P[b,n,f] = ∑ₘ Â[b,n,m] · x[b,m,f]` and the result
  `out[b,n,o] = ∑_f P[b,n,f] · W[f,o]`. Each of these is the specification's quantity of the same name, read at an
  index given by its coordinates; the only law of the extended reals used is `0 + s = s`, for the row sum's start.
  The lemmas below go stage by stage: adjacency, degree, inverse square root, normalised adjacency, propagated
  features, result.
-/
import proofs.«122377_j6777458393356_1_alg».proof.Proof.Gen.ReferenceIdeal.Run
import proofs.«122377_j6777458393356_1_alg».proof.Proof.Gen.ReferenceIdeal.Read
import proofs.«122377_j6777458393356_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.GraphConv
open Idealize.ShloMosaic Idealize.ShloMosaic.ValueIdx

/-! ## Where each stage reads its operands, in coordinates -/

/-- The row sum at `(b, n)` runs over the entries `(b, n, m)`. -/
theorem idx_v3_at (b : Fin 8) (n m : Fin 2048) : idx_main_v3 (ix2 b n) m = ix3 b n m :=
  funext fun a => Fin.ext (by match a with | ⟨0, _⟩ => rfl | ⟨1, _⟩ => rfl | ⟨2, _⟩ => rfl)

/-- The row factor at `(b, n, m)` is the factor of `(b, n)`: the two broadcasts only repeat it along `m`. -/
theorem idx_v7_v8_at (b : Fin 8) (n m : Fin 2048) : idx_main_v7 (idx_main_v8 (ix3 b n m)) = ix2 b n :=
  funext fun a => Fin.ext (by match a with | ⟨0, _⟩ => rfl | ⟨1, _⟩ => rfl)

/-- The column factor at `(b, n, m)` is the factor of `(b, m)`: the two broadcasts only repeat it along `n`. -/
theorem idx_v10_v11_at (b : Fin 8) (n m : Fin 2048) : idx_main_v10 (idx_main_v11 (ix3 b n m)) = ix2 b m :=
  funext fun a => Fin.ext (by match a with | ⟨0, _⟩ => rfl | ⟨1, _⟩ => rfl)

/-- The propagation at `(b, n, f)` contracts the adjacency's entries `(b, n, m)` … -/
theorem lidx_v13_at (b : Fin 8) (n : Fin 2048) (f : Fin 64) (m : Fin 2048) :
    lidx_main_v13 (ix3 b n f) m = ix3 b n m :=
  funext fun a => Fin.ext (by match a with | ⟨0, _⟩ => rfl | ⟨1, _⟩ => rfl | ⟨2, _⟩ => rfl)

/-- … against the features' entries `(b, m, f)`. -/
theorem ridx_v13_at (b : Fin 8) (n : Fin 2048) (f : Fin 64) (m : Fin 2048) :
    ridx_main_v13 (ix3 b n f) m = ix3 b m f :=
  funext fun a => Fin.ext (by match a with | ⟨0, _⟩ => rfl | ⟨1, _⟩ => rfl | ⟨2, _⟩ => rfl)

/-- The mixing at `(b, n, o)` contracts the propagated features' entries `(b, n, f)` … -/
theorem lidx_v14_at (b : Fin 8) (n : Fin 2048) (o f : Fin 64) : lidx_main_v14 (ix3 b n o) f = ix3 b n f :=
  funext fun a => Fin.ext (by match a with | ⟨0, _⟩ => rfl | ⟨1, _⟩ => rfl | ⟨2, _⟩ => rfl)

/-- … against the weights' entries `(f, o)`. -/
theorem ridx_v14_at (b : Fin 8) (n : Fin 2048) (o f : Fin 64) : ridx_main_v14 (ix3 b n o) f = ix2 f o :=
  funext fun a => Fin.ext (by match a with | ⟨0, _⟩ => rfl | ⟨1, _⟩ => rfl)

/-! ## The stages -/

/-- The adjacency: the exponential of the decay rate times the distance. -/
theorem v2_at (x1 : (⟨S8x2048x2048, .f32⟩ : BufTy).Contents (Elt Ideal)) (b : Fin 8) (n m : Fin 2048) :
    val_main_v2 (F := Ideal) x1 (ix3 b n m) = adj x1 b n m := by
  rw [val_main_v2_apply, val_main_v1_apply, val_main_v0_apply, val_main_cst_apply]
  rfl

/-- The degree: the row sum of the adjacency, its zero start removed by `0 + s = s`. -/
theorem v3_at (x1 : (⟨S8x2048x2048, .f32⟩ : BufTy).Contents (Elt Ideal)) (b : Fin 8) (n : Fin 2048) :
    val_main_v3 (F := Ideal) x1 (ix2 b n) = deg x1 b n := by
  rw [val_main_v3_apply, val_main_cst_0_apply, Ideal.ofBits_def, Ideal.ofBits_zero_f32, zero_add]
  unfold deg
  refine Finset.sum_congr rfl fun m _ => ?_
  rw [idx_v3_at]
  exact v2_at x1 b n m

/-- The inverse square root of the degree: one over its square root. -/
theorem v6_at (x1 : (⟨S8x2048x2048, .f32⟩ : BufTy).Contents (Elt Ideal)) (b : Fin 8) (n : Fin 2048) :
    val_main_v6 (F := Ideal) x1 (ix2 b n) = invSqrtDeg x1 b n := by
  rw [val_main_v6_apply, val_main_v5_apply, val_main_cst_1_apply, val_main_v4_apply, v3_at]
  rfl

/-- The normalised adjacency: the adjacency times the row node's factor, then times the column node's. -/
theorem v12_at (x1 : (⟨S8x2048x2048, .f32⟩ : BufTy).Contents (Elt Ideal)) (b : Fin 8) (n m : Fin 2048) :
    val_main_v12 (F := Ideal) x1 (ix3 b n m) = normAdj x1 b n m := by
  rw [val_main_v12_apply, val_main_v9_apply, val_main_v8_apply, val_main_v7_apply, val_main_v11_apply,
    val_main_v10_apply, idx_v7_v8_at, idx_v10_v11_at, v6_at, v6_at, v2_at]
  rfl

/-- The propagated features: the normalised adjacency's row against the features' column. -/
theorem v13_at (x0 : (⟨S8x2048x64, .f32⟩ : BufTy).Contents (Elt Ideal))
    (x1 : (⟨S8x2048x2048, .f32⟩ : BufTy).Contents (Elt Ideal)) (b : Fin 8) (n : Fin 2048) (f : Fin 64) :
    val_main_v13 (F := Ideal) x0 x1 (ix3 b n f) = propagated x1 x0 b n f := by
  rw [val_main_v13_apply]
  unfold propagated
  refine Finset.sum_congr rfl fun m _ => ?_
  rw [lidx_v13_at, ridx_v13_at, v12_at]

/-- The reference's result is the layer of the specification. -/
theorem ref_eq (x0 : (⟨S8x2048x64, .f32⟩ : BufTy).Contents (Elt Ideal)) (x1 : (⟨S8x2048x2048, .f32⟩ : BufTy).Contents (Elt Ideal))
    (x2 : (⟨S64x64, .f32⟩ : BufTy).Contents (Elt Ideal)) :
    val_main_v14 (F := Ideal) x0 x1 x2 = gcn x1 x0 x2 := by
  funext i
  obtain ⟨b, n, o, rfl⟩ : ∃ (b : Fin 8) (n : Fin 2048) (o : Fin 64), i = ix3 b n o := ⟨i 0, i 1, i 2, eq_ix3 i⟩
  rw [val_main_v14_apply, gcn_ix3]
  unfold gcnAt
  refine Finset.sum_congr rfl fun f _ => ?_
  rw [lidx_v14_at, ridx_v14_at, v13_at]

end Cert.ReferenceIdeal.RefValue

end
-- ==== Proof.lean ====
/-
  Equivalence, over the extended reals, of a two-kernel graph-convolution layer and its array-at-a-time reference.

  Both programs take pairwise distances `dist[b,n,m]` of 8 graphs on 2048 nodes, node features `x[b,m,f]` and mixing
  weights `W[f,o]`, and compute `out[b,n,o] = ∑_f (∑ₘ Â[b,n,m] · x[b,m,f]) · W[f,o]` where
  `Â[b,n,m] = (A[b,n,m] · d[b,n]^(-1/2)) · d[b,m]^(-1/2)`, `A = exp (κ · dist)`, `d[b,n] = ∑ₘ A[b,n,m]` and the inverse
  square root is spelt `1 / sqrt`. The reference does this with whole-array operations. The kernel program does it in
  two passes over the distances, one graph at a time: the first pass stores the inverse square roots of the degrees,
  a host step transposes them, and the second pass recomputes the adjacency, scales it by the stored factors (rows
  first, then columns, as the reference does) and applies the two matrix products. Read at exact arithmetic a matrix
  product into a zero accumulator is the plain sum of products and a lane reduction is the plain sum, so both programs
  are the same expression, index by index; no rearrangement of sums or products is involved, and the finiteness of the
  inputs is not used.

  The three frames are the generated ones (the reference's is its generated run with the result dropped). The value
  claim pairs the kernel program's run, whose result array is read off the two kernels' write-backs block by block, with
  the reference's run, read one operation at a time; both end at the specification's `gcn` of the arguments.
-/
import proofs.«122377_j6777458393356_1_alg».proof.Defs
import proofs.«122377_j6777458393356_1_alg».proof.Proof.Gen.Kernel
import proofs.«122377_j6777458393356_1_alg».proof.Proof.Gen.Kernel.Skeleton
import proofs.«122377_j6777458393356_1_alg».proof.Proof.Gen.Kernel.Launch
import proofs.«122377_j6777458393356_1_alg».proof.Proof.Gen.Kernel.Points
import proofs.«122377_j6777458393356_1_alg».proof.Proof.Gen.Kernel.Frame
import proofs.«122377_j6777458393356_1_alg».proof.Proof.Gen.KernelIdeal
import proofs.«122377_j6777458393356_1_alg».proof.Proof.Gen.KernelIdeal.Skeleton
import proofs.«122377_j6777458393356_1_alg».proof.Proof.Gen.KernelIdeal.Launch
import proofs.«122377_j6777458393356_1_alg».proof.Proof.Gen.KernelIdeal.Points
import proofs.«122377_j6777458393356_1_alg».proof.Proof.Gen.KernelIdeal.Frame
import proofs.«122377_j6777458393356_1_alg».proof.Proof.Gen.ReferenceIdeal
import proofs.«122377_j6777458393356_1_alg».proof.Proof.Gen.ReferenceIdeal.Run
import proofs.«122377_j6777458393356_1_alg».proof.Proof.Gen.ReferenceIdeal.Read
import proofs.«122377_j6777458393356_1_alg».proof.Proof.Gen.Pre_finite_inputs
import proofs.«122377_j6777458393356_1_alg».proof.Proof.Spec
import proofs.«122377_j6777458393356_1_alg».proof.Proof.KernelResult
import proofs.«122377_j6777458393356_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does its reading at exact arithmetic. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact-arithmetic reading rewrote no operation of the kernel program, so there is nothing to preserve. -/
theorem preserves : Cert.preserves_Kernel_KernelIdeal := trivial

/-- From memories that agree on the three arguments both programs end with the result array at the layer
    `gcn dist x W` of those arguments: the kernel program by its two kernels' write-backs, the reference by its
    operations read at an index. -/
theorem algebraic : Cert.algebraic_KernelIdeal_ReferenceIdeal := by
  intro m ρ m' ρ' _ hagree
  refine ⟨fun c => Cert.GraphConv.gcn (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
